-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S1x1 : Shape := ⟨2, ![1, 1]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩
abbrev S1 : Shape := ⟨1, ![1]⟩
abbrev S2048 : Shape := ⟨1, ![2048]⟩
abbrev S_ : Shape := ⟨0, ![]⟩

abbrev nBuf : Space → Nat
  | .hbm => 15
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S1x2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x1, .f32⟩
  | .local _ .vmem, ⟨3, _⟩ => ⟨S1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x2048_S1x2048_0_0 : ∀ a, (![0, 0] : Fin 2 → Nat) a + S1x2048.size a ≤ S1x2048.size a
  h_S1x2048 : 0 < S1x2048.numel
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  reduces_S1024x2048_S2048 : S1024x2048.Reduces [0] S2048
  shapeCasts_S2048_S1x2048 : S2048.ShapeCasts S1x2048
  shapeCasts_S1x1_S1x1 : S1x1.ShapeCasts S1x1
  shapeCasts_S1x2048_S1x2048 : S1x2048.ShapeCasts S1x2048
  shapeCasts_S1x1_S_ : S1x1.ShapeCasts S_
  shapeCasts_S1x2048_S2048 : S1x2048.ShapeCasts S2048
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  reducesTo_S16384x2048_S_d0_1 : S16384x2048.ReducesTo [0, 1] S_
  h_S_ : 0 < S_.numel
  reducesTo_S16384x2048_S2048_d0 : S16384x2048.ReducesTo [0] S2048
  reducesTo_S2048_S_d0 : S2048.ReducesTo [0] S_

variable [Facts₀]

class Facts : Prop extends Facts₀ where

variable [Facts]
-- ==== Proof.Pieces.lean ====
/-
  What one run of the kernel body leaves in its two output blocks, as values.

  At the first grid point the body stores a zero block into each output, reads it back, and stores the
  accumulated value: the [1,1] block ends at the body's sum-of-squares term of the input block over the zero block,
  the [1,2048] block at its column-sum term over the zero block.  At every later point the same two terms are
  taken over what the outputs held before.  Each statement holds for any float instance.
-/
import proofs.«178177_j81681688035493_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Blocks

open Cert.KernelIdeal Cert.KernelIdeal.Gen

variable {F : FTy → Type} [FloatOps F]

/-- The offsets of every load and store of the body: the block's origin. -/
theorem origin : (![0, 0] : Fin 2 → Nat) = fun _ => 0 := funext fun a => by fin_cases a <;> rfl

/-- A later point: the [1,1] output, holding `acc`, ends at the sum-of-squares term of the input block over `acc`. -/
theorem later_sq (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc : ¬cond0_0 i) (x : Vec F S1024x2048 .f32) (acc : Vec F S1x1 .f32) (acc' : Vec F S1x2048 .f32) :
    out0_B_1 c i a1 h1 a2 h2 a3 h3 hc x acc acc' = k0_pay3 x acc := by
  unfold out0_B_1
  rw [View.read_writes_eq_canon _ _ _ (cover0_B_1 c i a1 h1 a2 h2 a3 h3 hc x acc acc')]
  unfold kernelRun0_B
  dsimp only
  sl_unfold_words
  rw [View.canon_unit_zero origin]
  simp only [View.readAt_eq_ld, h1.read_unread, h2.read_unread, View.ld_unit_zero (S := S1024x2048) origin,
    View.ld_unit_zero (S := S1x1) origin]

/-- A later point: the [1,2048] output, holding `acc'`, ends at the column-sum term of the input block over `acc'`. -/
theorem later_col (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc : ¬cond0_0 i) (x : Vec F S1024x2048 .f32) (acc : Vec F S1x1 .f32) (acc' : Vec F S1x2048 .f32) :
    out0_B_2 c i a1 h1 a2 h2 a3 h3 hc x acc acc' = k0_pay4 x acc' := by
  unfold out0_B_2
  rw [View.read_writes_eq_canon _ _ _ (cover0_B_2 c i a1 h1 a2 h2 a3 h3 hc x acc acc')]
  unfold kernelRun0_B
  dsimp only
  sl_unfold_words
  rw [View.canon_unit_zero origin]
  simp only [View.readAt_eq_ld, h1.read_unread, h3.read_unread, View.ld_unit_zero (S := S1024x2048) origin,
    View.ld_unit_zero (S := S1x2048) origin]

/-- The first point: the [1,1] output ends at the sum-of-squares term of the input block over the zero block. -/
theorem first_sq (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc : cond0_0 i) (x : Vec F S1024x2048 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x1) origin, View.readCov_unit_zero (S := S1x1) _ origin]
  simp only [View.readAt_eq_ld, h1.read_unread, View.ld_unit_zero (S := S1024x2048) origin]

/-- The first point: the [1,2048] output ends at the column-sum term of the input block over the zero block. -/
theorem first_col (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc : cond0_0 i) (x : Vec F S1024x2048 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x2048) origin, View.readCov_unit_zero (S := S1x2048) _ origin]
  simp only [View.readAt_eq_ld, h1.read_unread, View.ld_unit_zero (S := S1024x2048) origin]

end Cert.KernelIdeal.Blocks

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.Terms.lean ====
/-
  The body's two accumulation terms read at an entry, at the ideal values.

  Over a [1024, 2048] block x and the running [1,1] value acc, the sum-of-squares term is, at its one entry,
  acc plus the sum over the block's rows of each row's sum of squares: the products are summed along each row, the
  row sums kept as a column, and the column summed.  Over x and the running [1,2048] row acc', the column-sum term
  is at column q the value acc' has there plus the sum of the block's column q.  The zero blocks the first point
  stores hold the extended real 0.
-/
import proofs.«178177_j81681688035493_1_alg».proof.Proof.Gen.KernelIdeal.Skeleton
import proofs.«178177_j81681688035493_1_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Terms

open Cert.KernelIdeal Cert.KernelIdeal.Gen

/-- A length-a vector kept as a column [a, 1] reads, at (i, u), the vector at i. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The zero [1,1] block holds 0. -/
theorem zero_sq (j : S1x1.Idx) : k0_pay1 (F := Ideal) j = 0 := by
  unfold k0_pay1
  exact Ideal.ofBits_zero_f32

/-- The zero [1,2048] block holds 0. -/
theorem zero_col (j : S1x2048.Idx) : k0_pay2 (F := Ideal) j = 0 := by
  unfold k0_pay2
  exact Ideal.ofBits_zero_f32

/-- The sum-of-squares term at its entry: the running value plus the sum of the squares of the block, row by row. -/
theorem sq_apply (x : Vec Ideal S1024x2048 .f32) (acc : Vec Ideal S1x1 .f32) (u v : Fin 1) :
    k0_pay3 (F := Ideal) x acc (ix2 u v) = acc (ix2 u v) + ∑ r : Fin 1024, ∑ c : Fin 2048, x (ix2 r c) * x (ix2 r c) := by
  unfold k0_pay3
  dsimp only
  rw [addf_apply, shapeCast_self]
  refine congrArg (acc (ix2 u v) + ·) ?_
  rw [shapeCast_a_1a_apply]
  refine (Cert.Lib.AxisSum.colSum_apply _ _ _ _ _ v).trans ?_
  refine Finset.sum_congr rfl fun r _ => ?_
  rw [column_apply]
  exact Cert.Lib.AxisSum.rowSum_apply _ _ _ _ _ r

/-- The column-sum term at column q: the running value there plus the sum of the block's column q. -/
theorem col_apply (x : Vec Ideal S1024x2048 .f32) (acc : Vec Ideal S1x2048 .f32) (u : Fin 1) (q : Fin 2048) :
    k0_pay4 (F := Ideal) x acc (ix2 u q) = acc (ix2 u q) + ∑ r : Fin 1024, x (ix2 r q) := by
  unfold k0_pay4
  dsimp only
  rw [addf_apply, shapeCast_self]
  refine congrArg (acc (ix2 u q) + ·) ?_
  rw [shapeCast_a_1a_apply]
  exact Cert.Lib.AxisSum.colSum_apply _ _ _ _ _ q

end Cert.KernelIdeal.Terms

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.Totals.lean ====
/-
  Totals of a 16384 x 2048 matrix of extended reals taken sixteen row blocks at a time.

  Two quantities are accumulated block by block (a block is 1024 consecutive rows): the sum of the squares of
  all entries seen so far, and, for each column, the sum of that column's entries seen so far.  After the last
  block the first is the sum of the squares of every entry of the matrix and the second is the column's sum over
  all 16384 rows.  Addition of extended reals is commutative and associative, so no finiteness is needed.
-/
import Idealize.ShloMosaic.Lib.ValueIdx
import proofs.«178177_j81681688035493_1_alg».proof.Proof.LibBlockSum

noncomputable section

open scoped BigOperators

namespace Cert.PairTotals

open Idealize.ShloMosaic Idealize.ShloMosaic.ValueIdx

/-- The matrices the totals are taken of. -/
abbrev Mat : Type := (⟨2, ![16384, 2048]⟩ : Shape).Idx → EReal

/-- The sum of the squares of row `k` (zero for a row number past the last row). -/
def rowSq (X : Mat) (k : ℕ) : EReal :=
  if h : k < 16384 then ∑ c : Fin 2048, X (ix2 ⟨k, h⟩ c) * X (ix2 ⟨k, h⟩ c) else 0

/-- The entry of column `q` in row `k` (zero for a row number past the last row). -/
def entry (X : Mat) (q : Fin 2048) (k : ℕ) : EReal :=
  if h : k < 16384 then X (ix2 ⟨k, h⟩ q) else 0

/-- The squares of all entries in the first `n + 1` blocks of 1024 rows, summed. -/
def sqUpTo (X : Mat) (n : ℕ) : EReal :=
  ∑ s ∈ Finset.range (n + 1), ∑ r : Fin 1024, rowSq X (1024 * s + r.val)

/-- Column `q`'s entries in the first `n + 1` blocks of 1024 rows, summed. -/
def colUpTo (X : Mat) (q : Fin 2048) (n : ℕ) : EReal :=
  ∑ s ∈ Finset.range (n + 1), ∑ r : Fin 1024, entry X q (1024 * s + r.val)

theorem sqUpTo_zero (X : Mat) : sqUpTo X 0 = ∑ r : Fin 1024, rowSq X (1024 * 0 + r.val) := by
  unfold sqUpTo
  rw [Finset.sum_range_one]

theorem sqUpTo_succ (X : Mat) (n : ℕ) :
    sqUpTo X (n + 1) = sqUpTo X n + ∑ r : Fin 1024, rowSq X (1024 * (n + 1) + r.val) := by
  unfold sqUpTo
  rw [Finset.sum_range_succ]

theorem colUpTo_zero (X : Mat) (q : Fin 2048) : colUpTo X q 0 = ∑ r : Fin 1024, entry X q (1024 * 0 + r.val) := by
  unfold colUpTo
  rw [Finset.sum_range_one]

theorem colUpTo_succ (X : Mat) (q : Fin 2048) (n : ℕ) :
    colUpTo X q (n + 1) = colUpTo X q n + ∑ r : Fin 1024, entry X q (1024 * (n + 1) + r.val) := by
  unfold colUpTo
  rw [Finset.sum_range_succ]

/-- After all sixteen blocks the running sum of squares is the sum of the squares of every entry. -/
theorem sqUpTo_last (X : Mat) : sqUpTo X 15 = ∑ j, X j * X j := by
  unfold sqUpTo
  refine (BlockSum.sum_blocks 1024 16 (rowSq X)).trans ?_
  show ∑ k : Fin 16384, rowSq X k.val = _
  rw [sum_idx2]
  refine Finset.sum_congr rfl fun k _ => ?_
  unfold rowSq
  rw [dif_pos k.isLt]

/-- After all sixteen blocks a column's running sum is its sum over all 16384 rows. -/
theorem colUpTo_last (X : Mat) (q : Fin 2048) : colUpTo X q 15 = ∑ k : Fin 16384, X (ix2 k q) := by
  unfold colUpTo
  refine (BlockSum.sum_blocks 1024 16 (entry X q)).trans ?_
  show ∑ k : Fin 16384, entry X q k.val = _
  refine Finset.sum_congr rfl fun k _ => ?_
  unfold entry
  rw [dif_pos k.isLt]

end Cert.PairTotals

end
-- ==== Proof.Running.lean ====
/-
  The two outputs of the kernel region, as running totals over the grid.

  Grid point t stages rows 1024 t … 1024 t + 1023 of the argument matrix.  After point n the [1,1] output holds
  the sum of the squares of all entries in the first n + 1 blocks, and the [1,2048] output holds at column q the
  sum of column q over those blocks: the first point starts both from zero, every later point adds its block's
  contribution to what the point before left.  Both outputs are written back once, after the last point, and
  their one block is the whole array; so the two arrays end at the totals over the whole matrix.
-/
import proofs.«178177_j81681688035493_1_alg».proof.Proof.Gen.KernelIdeal.Frame
import proofs.«178177_j81681688035493_1_alg».proof.Proof.Pieces
import proofs.«178177_j81681688035493_1_alg».proof.Proof.Terms
import proofs.«178177_j81681688035493_1_alg».proof.Proof.Totals
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.PairTotals

variable (m : (ℓ : Loc nD τ sig) → Buf (Elt Ideal) ℓ)

/-- The argument matrix on core `c`. -/
abbrev mat (c : Dev nD) : Mat := m ((c : Thread nD τ).loc main_arg0)

/-- The block of the argument matrix staged at point `t`. -/
abbrev blk (c : Dev nD) (t : Fin cfg0.N) : Vec Ideal S1024x2048 .f32 := iblk m c 0 t

/-- Point `t` stages block row `t`, block column 0. -/
theorem block_index : ∀ t : Fin cfg0.N, win0_0.index t 0 = t.val ∧ win0_0.index t 1 = 0 :=
  (by decide +kernel : ∀ t : Fin grid0.N, win0_0.index t 0 = t.val ∧ win0_0.index t 1 = 0)

theorem row_lt (t : Fin cfg0.N) (r : Fin 1024) : 1024 * t.val + r.val < 16384 := by
  have hN : t.val < 16 := lt_of_lt_of_eq t.isLt (show cfg0.N = 16 from N_0)
  omega

/-- Entry (r, q) of the block staged at point `t` is entry (1024 t + r, q) of the matrix. -/
theorem blk_apply (c : Dev nD) (t : Fin cfg0.N) (r : Fin 1024) (q : Fin 2048) :
    blk m c t (ix2 r q) = mat m c (ix2 ⟨1024 * t.val + r.val, row_lt t r⟩ q) := by
  unfold blk iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = 1024 * t.val + r.val; rw [(block_index t).1]; omega
  | ⟨1, _⟩ => show win0_0.index t 1 * 2048 + 1 * q.val = q.val; rw [(block_index t).2]; omega

/-- The squares of the block's row r sum to the matrix row's sum of squares. -/
theorem blk_rowSq (c : Dev nD) (t : Fin cfg0.N) (r : Fin 1024) :
    ∑ q : Fin 2048, blk m c t (ix2 r q) * blk m c t (ix2 r q) = rowSq (mat m c) (1024 * t.val + r.val) := by
  unfold rowSq
  rw [dif_pos (row_lt t r)]
  exact Finset.sum_congr rfl fun q _ => by rw [blk_apply]

/-- The block's entry in column q is the matrix column's entry. -/
theorem blk_entry (c : Dev nD) (t : Fin cfg0.N) (r : Fin 1024) (q : Fin 2048) :
    blk m c t (ix2 r q) = entry (mat m c) q (1024 * t.val + r.val) := by
  unfold entry
  rw [dif_pos (row_lt t r)]
  exact blk_apply m c t r q

/-- After point n the outputs hold the running totals over the first n + 1 blocks: by induction on the point. -/
theorem running (c : Dev nD) : ∀ (n : ℕ) (h : n < cfg0.N),
    (∀ u v : Fin 1, (outsAt0 m c n h).1 (ix2 u v) = sqUpTo (mat m c) n)
      ∧ (∀ (u : Fin 1) (q : Fin 2048), (outsAt0 m c n h).2 (ix2 u q) = colUpTo (mat m c) q n)
  | 0, h => by
    have hA : (⟨0, h⟩ : Fin cfg0.N).val % 16 = 0 := rfl
    refine ⟨fun u v => ?_, fun u q => ?_⟩
    · rw [outsAt0_A m c ⟨0, h⟩ hA]
      dsimp only
      refine (congrFun (Blocks.first_sq (F := Ideal) c (grid0.coords ⟨0, h⟩) (ms0_0 ⟨0, h⟩) (hs0_0 ⟨0, h⟩) (ms0_1 ⟨0, h⟩)
        (hs0_1 ⟨0, h⟩) (ms0_2 ⟨0, h⟩) (hs0_2 ⟨0, h⟩) ((hcond0_0 ⟨0, h⟩).mpr hA) (blk m c ⟨0, h⟩)) (ix2 u v)).trans ?_
      rw [Terms.sq_apply, Terms.zero_sq, zero_add, sqUpTo_zero]
      exact Finset.sum_congr rfl fun r _ => blk_rowSq m c ⟨0, h⟩ r
    · rw [outsAt0_A m c ⟨0, h⟩ hA]
      dsimp only
      refine (congrFun (Blocks.first_col (F := Ideal) c (grid0.coords ⟨0, h⟩) (ms0_0 ⟨0, h⟩) (hs0_0 ⟨0, h⟩) (ms0_1 ⟨0, h⟩)
        (hs0_1 ⟨0, h⟩) (ms0_2 ⟨0, h⟩) (hs0_2 ⟨0, h⟩) ((hcond0_0 ⟨0, h⟩).mpr hA) (blk m c ⟨0, h⟩)) (ix2 u q)).trans ?_
      rw [Terms.col_apply, Terms.zero_col, zero_add, colUpTo_zero]
      exact Finset.sum_congr rfl fun r _ => blk_entry m c ⟨0, h⟩ r q
  | n + 1, h => by
    have hN : cfg0.N = 16 := N_0
    have hB : ¬(⟨n + 1, h⟩ : Fin cfg0.N).val % 16 = 0 := by dsimp only; omega
    obtain ⟨ih1, ih2⟩ := running c n (Nat.lt_of_succ_lt h)
    refine ⟨fun u v => ?_, fun u q => ?_⟩
    · rw [outsAt0_B m c ⟨n + 1, h⟩ hB]
      dsimp only
      refine (congrFun (Blocks.later_sq (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩)
        (fun hh => hB ((hcond0_0 ⟨n + 1, h⟩).mp hh)) (blk m c ⟨n + 1, h⟩)
        (outsAt0 m c n (Nat.lt_of_succ_lt h)).1 (outsAt0 m c n (Nat.lt_of_succ_lt h)).2) (ix2 u v)).trans ?_
      rw [Terms.sq_apply, sqUpTo_succ, ih1 u v]
      exact congrArg (sqUpTo (mat m c) n + ·) (Finset.sum_congr rfl fun r _ => blk_rowSq m c ⟨n + 1, h⟩ r)
    · rw [outsAt0_B m c ⟨n + 1, h⟩ hB]
      dsimp only
      refine (congrFun (Blocks.later_col (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩)
        (fun hh => hB ((hcond0_0 ⟨n + 1, h⟩).mp hh)) (blk m c ⟨n + 1, h⟩)
        (outsAt0 m c n (Nat.lt_of_succ_lt h)).1 (outsAt0 m c n (Nat.lt_of_succ_lt h)).2) (ix2 u q)).trans ?_
      rw [Terms.col_apply, colUpTo_succ, ih2 u q]
      exact congrArg (colUpTo (mat m c) q n + ·) (Finset.sum_congr rfl fun r _ => blk_entry m c ⟨n + 1, h⟩ r q)

end Cert.KernelIdeal.Running

end
-- ==== Proof.Finals.lean ====
/-
  The two result arrays of the kernel region after the run.

  Each output window has ONE block, the whole array, written back after the last grid point only.  So each array
  ends at what the last point left in the window's staging buffer, which is the running total over all sixteen
  blocks: the [1,1] array holds the sum of the squares of every entry of the argument matrix, and the [1,2048]
  array holds at column q the sum of the matrix's column q.
-/
import proofs.«178177_j81681688035493_1_alg».proof.Proof.Running

noncomputable section

open scoped BigOperators
open Idealize.ShloMosaic Idealize.ShloMosaic.TcCoe Idealize.SL.Sem Idealize.ShloMosaic.ValueIdx
open Idealize.ShloMosaic.Pipeline (Dat)

namespace Cert.KernelIdeal.Finals

open Cert.KernelIdeal Cert.KernelIdeal.Gen Cert.PairTotals Cert.KernelIdeal.Running

variable (m : (ℓ : Loc nD τ sig) → Buf (Elt Ideal) ℓ)

/-- The last grid point. -/
theorem last_lt : (15 : ℕ) < cfg0.N := by rw [show cfg0.N = 16 from N_0]; decide

/-- What the last point leaves in the [1,1] output. -/
abbrev sqEnd (c : Dev nD) : Buf (Elt Ideal) ((c : Thread nD τ).loc main_v0_0) := (outsAt0 m c 15 last_lt).1

/-- What the last point leaves in the [1,2048] output. -/
abbrev colEnd (c : Dev nD) : Buf (Elt Ideal) ((c : Thread nD τ).loc main_v0_1) := (outsAt0 m c 15 last_lt).2

/-- Its one entry is the sum of the squares of every entry of the matrix. -/
theorem sqEnd_apply (c : Dev nD) (u v : Fin 1) : sqEnd m c (ix2 u v) = ∑ j, mat m c j * mat m c j :=
  ((running m c 15 last_lt).1 u v).trans (sqUpTo_last (mat m c))

/-- Its entry in column q is the sum of the matrix's column q. -/
theorem colEnd_apply (c : Dev nD) (u : Fin 1) (q : Fin 2048) : colEnd m c (ix2 u q) = ∑ k : Fin 16384, mat m c (ix2 k q) :=
  ((running m c 15 last_lt).2 u q).trans (colUpTo_last (mat m c) q)

/-- The one write-back of the [1,1] window, after point 15, writes what that point left. -/
theorem flushed_sq (c : Dev nD) (t : Fin cfg0.N) (hf : (cfg0.win 1).flush t = true) :
    (dats m 0 c).flushed 1 t = ((cfg0.win 1).blk t).view.read (Elt Ideal) (sqEnd m c) := by
  have hN : cfg0.N = 16 := N_0
  have h15 : t.val = 15 := by have := (flush0_1 t).mp hf; have := t.isLt; omega
  obtain rfl : t = t0_15 := Fin.ext h15
  show (cfg0.win 1).cut (grid0.coords t0_15) ((dats m 0 c).after 1 t0_15) = _
  rw [after0_1]
  have hz' : (fun a => win0_1.index t0_15 a * main_v0_0.ty.shape.size a) = fun _ => 0 := funext fun a => by fin_cases a <;> decide
  exact (Memref.read_access_unit_zero (Elt Ideal) main_v0_0 hz' (fun a => by rw [congrFun hz' a]; simp) (sqEnd m c)).symm

/-- The one write-back of the [1,2048] window, after point 15, writes what that point left. -/
theorem flushed_col (c : Dev nD) (t : Fin cfg0.N) (hf : (cfg0.win 2).flush t = true) :
    (dats m 0 c).flushed 2 t = ((cfg0.win 2).blk t).view.read (Elt Ideal) (colEnd m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have hz' : (fun a => win0_2.index t0_15 a * main_v0_1.ty.shape.size a) = fun _ => 0 := funext fun a => by fin_cases a <;> decide
  exact (Memref.read_access_unit_zero (Elt Ideal) main_v0_1 hz' (fun a => by rw [congrFun hz' a]; simp) (colEnd m c)).symm

/-- The [1,1] array ends at it: the block written back after point 15 is the whole array. -/
theorem final_sq (c : Dev nD) : (dats m 0 c).arrAt 1 cfg0.N = sqEnd m c :=
  (dats m 0 c).arrAt_eq_of_cover 1 (sqEnd m c) (flushed_sq m c) fun i =>
    ⟨t0_15, (flush0_1 t0_15).mpr rfl, by
      show i ∈ ((View.whole main_v0_0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The [1,2048] array ends at it likewise. -/
theorem final_col (c : Dev nD) : (dats m 0 c).arrAt 2 cfg0.N = colEnd m c :=
  (dats m 0 c).arrAt_eq_of_cover 2 (colEnd m c) (flushed_col m c) fun i =>
    ⟨t0_15, (flush0_2 t0_15).mpr rfl, by
      show i ∈ ((View.whole main_v0_1).slice (win0_2.rect t0_15)).set
      rw [View.set_slice_whole, Rect.mem_set_unit]
      intro a
      have h0 : (i 0 : Nat) < 1 := (i 0).isLt
      have h1 : (i 1 : Nat) < 2048 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 2048 from by decide +kernel]; omega⟩

end Cert.KernelIdeal.Finals

end
-- ==== Proof.Tail.lean ====
/-
  The closing arithmetic both programs share.

  From the sum of squares s (a scalar) and the column sums v (a vector of 2048) both programs compute
  ((16384 · s − Σ_q v_q · v_q) / 2) / n_pairs on the host, with the same literals.  It is stated once, at the
  ideal values, and is never opened: the two programs are compared by comparing s and v.
-/
import Idealize.ShloMosaic.PureOps.Ideal

noncomputable section

namespace Cert.PairTail

open Idealize.ShloMosaic

/-- The host's closing arithmetic on the two totals. -/
def closing (hr : (⟨1, ![2048]⟩ : Shape).ReducesTo [0] ⟨0, ![]⟩) (hp : 0 < (⟨0, ![]⟩ : Shape).numel)
    (s : FVec Ideal ⟨0, ![]⟩ .f32) (v : FVec Ideal ⟨1, ![2048]⟩ .f32) : FVec Ideal ⟨0, ![]⟩ .f32 :=
  Host.divf (F := Ideal)
    (Host.divf (F := Ideal)
      (subf (mulf (constant (F := Ideal) ⟨0, ![]⟩ .f32 0x46800000#32) s)
        (Host.reduceAdd (F := Ideal) (mulf v v) (constant (F := Ideal) ⟨0, ![]⟩ .f32 0x00000000#32) hr hp))
      (constant (F := Ideal) ⟨0, ![]⟩ .f32 0x40000000#32))
    (constant (F := Ideal) ⟨0, ![]⟩ .f32 0x4CFFFC00#32)

end Cert.PairTail

end
-- ==== Proof.KernelRun.lean ====
/-
  The idealized kernel's run, read: its result is the shared closing arithmetic of the two result arrays of the
  kernel region, the [1,1] array reshaped to a scalar and the [1,2048] array reshaped to a vector.
-/
import proofs.«178177_j81681688035493_1_alg».proof.Proof.Finals
import proofs.«178177_j81681688035493_1_alg».proof.Proof.Tail
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Finals Cert.PairTail

variable (m : (ℓ : Loc nD τ sig) → Buf (Elt Ideal) ℓ) (ρ : Dev nD → PrngReg)

/-- The program's result on core `c`. -/
def value (c : Dev nD) : Buf (Elt Ideal) ((c : Thread nD τ).loc main_v8) :=
  closing reducesTo_S2048_S_d0 h_S_ (shapeCast S_ (sqEnd m c) shapeCasts_S1x1_S_) (shapeCast S2048 (colEnd m c) shapeCasts_S1x2048_S2048)

/-- The host lines after the region, run on the region's two result arrays, end at it. -/
theorem tail_value (c : Dev nD) :
    Pipeline.afterTail₀ cfgs (dats m) 0 (V0 m) [hostOps1] c main_v8 = value m c := by
  unfold Pipeline.afterTail₀
  show StableHlo.after hostOps1 _ (Proc.devRef .tc main_v8) = _
  after_results
  have e1 : Pipeline.withArrays (cfgs 0).spec c (V0 m c) (fun w => (dats m 0 c).arrAt w (cfgs 0).N) (Proc.devRef .tc main_v0_0)
      = sqEnd m c := (Pipeline.withArrays_arr spec0 launch0.win.arr_inj c _ _ 1).trans (final_sq m c)
  have e2 : Pipeline.withArrays (cfgs 0).spec c (V0 m c) (fun w => (dats m 0 c).arrAt w (cfgs 0).N) (Proc.devRef .tc main_v0_1)
      = colEnd m c := (Pipeline.withArrays_arr spec0 launch0.win.arr_inj c _ _ 2).trans (final_col m c)
  rw [e1, e2]
  rfl

/-- Every weakly fair execution of the idealized kernel program terminates with its result at `value` and its
    argument unchanged. -/
theorem run : θ_run defs (onTc (τ := τ) (main (F := Ideal))) ⟨m, fun _ => 0, ρ⟩ fun r => ∀ c : Dev nD,
      r.2.mem ((c : Thread nD τ).loc main_v8) = value m c
      ∧ r.2.mem ((c : Thread nD τ).loc main_arg0) = m ((c : Thread nD τ).loc main_arg0) :=
  (θ_run defs _ _).mono (fun _ h c =>
      ⟨((h c).2 main_v8 (Pipeline.mem_restRefs_of main_v8 rfl (by decide))).trans (tail_value m c),
        ((h c).1 0).trans ((dats m 0 c).arrAt_in 0 rfl _)⟩)
    (run_main m ρ)

end Cert.KernelIdeal.Result

end
-- ==== Proof.Bridge.lean ====
/-
  The reference's two totals are the kernel region's two result arrays, reshaped.

  The reference sums the squares of the whole matrix in one reduction over both axes, and the columns in one
  reduction over the rows, each from the initial value 0.  The kernel region's [1,1] array holds the same sum of
  squares and its [1,2048] array the same column sums, gathered sixteen row blocks at a time; the reshape to a
  scalar, and to a vector of 2048, keeps each entry.
-/
import proofs.«178177_j81681688035493_1_alg».proof.Proof.Finals
import proofs.«178177_j81681688035493_1_alg».proof.Proof.Gen.ReferenceIdeal.Read
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.Bridge

open Cert.KernelIdeal.Finals Cert.KernelIdeal.Running Cert.PairTotals

variable (m : (ℓ : Loc Cert.KernelIdeal.nD Cert.KernelIdeal.τ Cert.KernelIdeal.sig) → Buf (Elt Ideal) ℓ)

/-- A [1,1] array reshaped to a scalar keeps its entry. -/
theorem scalar_apply {α : Type} (x : (⟨2, ![1, 1]⟩ : Shape).Idx → α) (h : (⟨2, ![1, 1]⟩ : Shape).ShapeCasts ⟨0, ![]⟩)
    (i : (⟨0, ![]⟩ : Shape).Idx) : shapeCast ⟨0, ![]⟩ x h i = x (ix2 (0 : Fin 1) (0 : Fin 1)) :=
  shapeCast_apply x h _ _ (by
    rw [Shape.rowMajor_val_two]
    rfl)

/-- The reference's sum of squares over both axes is the kernel's [1,1] array as a scalar. -/
theorem sq_total (c : Dev Cert.KernelIdeal.nD) :
    Host.reduceAdd (F := Ideal) (mulf (mat m c) (mat m c)) (constant (F := Ideal) Cert.ReferenceIdeal.S_ .f32 0x00000000#32)
        Cert.ReferenceIdeal.Facts₀.reducesTo_S16384x2048_S_d0_1 Cert.ReferenceIdeal.Facts₀.h_S_
      = shapeCast Cert.KernelIdeal.S_ (sqEnd m c) Cert.KernelIdeal.Facts₀.shapeCasts_S1x1_S_ := by
  funext i
  rw [scalar_apply, sqEnd_apply]
  refine (Cert.ReferenceIdeal.Read.val_main_v1_apply (mat m c) i).trans ?_
  rw [Cert.ReferenceIdeal.Read.val_main_cst_apply]
  show Ideal.ofBits .f32 0x00000000#32 + _ = _
  rw [Ideal.ofBits_zero_f32, zero_add]
  rfl

/-- The reference's column sums are the kernel's [1,2048] array as a vector. -/
theorem col_total (c : Dev Cert.KernelIdeal.nD) :
    Host.reduceAdd (F := Ideal) (mat m c) (constant (F := Ideal) Cert.ReferenceIdeal.S_ .f32 0x00000000#32)
        Cert.ReferenceIdeal.Facts₀.reducesTo_S16384x2048_S2048_d0 Cert.ReferenceIdeal.Facts₀.h_S_
      = shapeCast Cert.KernelIdeal.S2048 (colEnd m c) Cert.KernelIdeal.Facts₀.shapeCasts_S1x2048_S2048 := by
  funext i
  obtain ⟨q, rfl⟩ : ∃ q : Fin 2048, i = ix1 q := ⟨i 0, eq_ix1 i⟩
  rw [shapeCast_1a_a_apply, colEnd_apply]
  refine (Cert.ReferenceIdeal.Read.val_main_v2_apply (mat m c) (ix1 q)).trans ?_
  rw [Cert.ReferenceIdeal.Read.val_main_cst_0_apply]
  show Ideal.ofBits .f32 0x00000000#32 + _ = _
  rw [Ideal.ofBits_zero_f32, zero_add]
  refine Finset.sum_congr rfl fun k _ => congrArg (mat m c) ?_
  funext a
  match a with
  | ⟨0, _⟩ => rfl
  | ⟨1, _⟩ => rfl

end Cert.Bridge

end
-- ==== Proof.lean ====
/-
  The mean squared distance over all unordered pairs of 16384 rows of a [16384, 2048] matrix, by the closed form
      (16384 · Σ_i |x_i|² − |Σ_i x_i|²) / 2 / n_pairs,
  computed two ways.  The kernel streams the matrix through sixteen blocks of 1024 rows, accumulating across the
  grid the sum of the squares of all entries (a [1,1] array) and the column sums (a [1,2048] array), and leaves
  the closing arithmetic to the host; the reference takes the two totals with one reduction each and does the
  same closing arithmetic with the same literals.

  Over the extended reals addition is commutative and associative, so the total gathered block by block, each
  block row by row, from zero, is the total over all entries (Totals.lean, Running.lean, Finals.lean); the two
  programs therefore feed equal totals (Bridge.lean) into one closing function (Tail.lean), which is never
  opened.  No finiteness of the input is used.

  The frames of the two kernel programs are the generated frame runs; the reference's frame is its generated run
  with the result dropped; the ideal pass rewrote nothing, so the idealization claim is trivial.
-/
import proofs.«178177_j81681688035493_1_alg».proof.Defs
import proofs.«178177_j81681688035493_1_alg».proof.Proof.Gen.Kernel
import proofs.«178177_j81681688035493_1_alg».proof.Proof.Gen.Kernel.Skeleton
import proofs.«178177_j81681688035493_1_alg».proof.Proof.Gen.Kernel.Launch
import proofs.«178177_j81681688035493_1_alg».proof.Proof.Gen.Kernel.Points
import proofs.«178177_j81681688035493_1_alg».proof.Proof.Gen.Kernel.Frame
import proofs.«178177_j81681688035493_1_alg».proof.Proof.Gen.KernelIdeal
import proofs.«178177_j81681688035493_1_alg».proof.Proof.Gen.KernelIdeal.Skeleton
import proofs.«178177_j81681688035493_1_alg».proof.Proof.Gen.KernelIdeal.Launch
import proofs.«178177_j81681688035493_1_alg».proof.Proof.Gen.KernelIdeal.Points
import proofs.«178177_j81681688035493_1_alg».proof.Proof.Gen.KernelIdeal.Frame
import proofs.«178177_j81681688035493_1_alg».proof.Proof.Gen.ReferenceIdeal
import proofs.«178177_j81681688035493_1_alg».proof.Proof.Gen.Pre_finite_inputs
import proofs.«178177_j81681688035493_1_alg».proof.Proof.Gen.ReferenceIdeal.Run
import proofs.«178177_j81681688035493_1_alg».proof.Proof.Gen.ReferenceIdeal.Read
import proofs.«178177_j81681688035493_1_alg».proof.Proof.KernelRun
import proofs.«178177_j81681688035493_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the closing arithmetic of equal totals. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [hagree c]
  show _ = Cert.KernelIdeal.Result.value m c
  unfold Cert.KernelIdeal.Result.value
  rw [← Cert.Bridge.sq_total m c, ← Cert.Bridge.col_total m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
